-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S2048x2048 : Shape := ⟨2, ![2048, 2048]⟩
abbrev S2048 : Shape := ⟨1, ![2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S2048 .f32) (main_arg5 : FVec F S2048 .f32) (main_arg6 : FVec F S2048 .f32) (main_arg7 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_v33

def fn {F : FTy → Type} [FloatOps F] (main_arg0 : FVec F S1024x2048 .f32) (main_arg1 : FVec F S2048x2048 .f32) (main_arg2 : FVec F S2048x2048 .f32) (main_arg3 : FVec F S2048 .f32) (main_arg4 : FVec F S2048 .f32) (main_arg5 : FVec F S2048 .f32) (main_arg6 : FVec F S2048 .f32) (main_arg7 : FVec F S2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S1024x2048 : Shape := ⟨2, ![1024, 2048]⟩
abbrev S2048x2048 : Shape := ⟨2, ![2048, 2048]⟩
abbrev S2048 : Shape := ⟨1, ![2048]⟩
abbrev S2048x1 : Shape := ⟨2, ![2048, 1]⟩
abbrev S1x2048 : Shape := ⟨2, ![1, 2048]⟩
abbrev S256x2048 : Shape := ⟨2, ![256, 2048]⟩
abbrev S256x1 : Shape := ⟨2, ![256, 1]⟩
abbrev S1x256 : Shape := ⟨2, ![1, 256]⟩
abbrev S1024x256 : Shape := ⟨2, ![1024, 256]⟩

abbrev nBuf : Space → Nat
  | .hbm => 14
  | .vmem => 12
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048x1, .f32⟩
  | .hbm, ⟨9, _⟩ => ⟨S1x2048, .f32⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S1024x2048, .f32⟩
  | .local _ .vmem, ⟨0, _⟩ => ⟨S1024x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x1, .f32⟩
  | .local _ .vmem, ⟨6, _⟩ => ⟨S256x1, .f32⟩
  | .local _ .vmem, ⟨7, _⟩ => ⟨S1x2048, .f32⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S2048_S2048x1 : S2048.ShapeCasts S2048x1
  shapeCasts_S2048_S1x2048 : S2048.ShapeCasts S1x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S256x1_S256x2048 : S256x1.Broadcasts S256x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x2048.size a
  hwx0_0 : ∀ i : grid0.Coords, EltTy.bits .f32 = 32 ∨ (Rect.block (s := S1024x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S2048x1.size a
  hwx0_3 : ∀ i : grid0.Coords, EltTy.bits .f32 = 32 ∨ (Rect.block (s := S2048x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S1024x2048.size a
  hwx0_6 : ∀ i : grid0.Coords, EltTy.bits .f32 = 32 ∨ (Rect.block (s := S1024x2048) S1024x256.size (cc0_transform_6 i) (hinb0_6 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_arg0) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S256x1024 : Shape := ⟨2, ![256, 1024]⟩
abbrev S512x1024 : Shape := ⟨2, ![512, 1024]⟩
abbrev S1x1024 : Shape := ⟨2, ![1, 1024]⟩
abbrev S1x512 : Shape := ⟨2, ![1, 512]⟩
abbrev S256x512 : Shape := ⟨2, ![256, 512]⟩

abbrev nBuf : Space → Nat
  | .hbm => 14
  | .vmem => 15
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S1024x2048, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v26 : BitVec 1 := Scalar.cmpi .eq arg2 c1_i32
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S2048_S1x2048 : S2048.ShapeCasts S1x2048
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1024_S256x1024_0_0 : ∀ a, (![0, 0] : Fin 2 → Nat) a + S256x1024.size a ≤ S256x1024.size a
  h_S256x1024 : 0 < S256x1024.numel
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x2048.size a
  hwx0_0 : ∀ i : grid0.Coords, EltTy.bits .f32 = 32 ∨ (Rect.block (s := S1024x2048) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x2048.size a
  hwx0_1 : ∀ i : grid0.Coords, EltTy.bits .f32 = 32 ∨ (Rect.block (s := S2048x2048) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x2048.size a
  hwx0_2 : ∀ i : grid0.Coords, EltTy.bits .f32 = 32 ∨ (Rect.block (s := S2048x2048) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x2048.size a
  hwx0_3 : ∀ i : grid0.Coords, EltTy.bits .f32 = 32 ∨ (Rect.block (s := S1x2048) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S1024x2048.size a
  hwx0_6 : ∀ i : grid0.Coords, EltTy.bits .f32 = 32 ∨ (Rect.block (s := S1024x2048) S256x512.size (cc0_transform_6 i) (hinb0_6 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== Proof.Spec.lean ====
/-
  A noisy linear layer with factorised noise, as one function of its eight argument arrays.

  With `x` of shape [1024, 2048], the two weight arrays of shape [2048, 2048] (row `o`, column `k`), the input noise
  `ein` and the output noise `eout` of length 2048, and the three bias arrays of length 2048, the layer's value at
  row `b` and column `o` is

      y b o = Σ_k x b k · (wmu o k + wsig o k · (eout o · ein k)) + (bmu o + bsig o · beps o).

  `fused` is this sum over all 2048 columns at once, the effective weight formed first. `twoPath` computes the same
  number the other way round: the mean path `Σ x · wmu` and the noise path `(Σ (x · ein) · wsig) · eout` separately,
  over the lower and the upper half of the columns in turn, added onto a zero in that order, the bias last. Over the
  extended reals the two differ at infinities (distributivity fails there); where every entry is a real number they
  are equal, which `Proof/Algebra.lean` proves.
-/
import Idealize.ShloMosaic.PureOps.Ideal
import Idealize.ShloMosaic.Lib.ValueIdx

noncomputable section

namespace Cert.NoisyLinear

open Idealize.ShloMosaic Idealize.ShloMosaic.ValueIdx

/-- The shape of `x` and of the result. -/
abbrev SX : Shape := ⟨2, ![1024, 2048]⟩
/-- The shape of the two weight arrays. -/
abbrev SW : Shape := ⟨2, ![2048, 2048]⟩
/-- The shape of the noise and bias vectors. -/
abbrev SV : Shape := ⟨1, ![2048]⟩

/-- Column `k` of the lower half, as a column of the whole. -/
def lo (k : Fin 1024) : Fin 2048 := ⟨k.val, by omega⟩
/-- Column `k` of the upper half, as a column of the whole. -/
def hi (k : Fin 1024) : Fin 2048 := ⟨1024 + k.val, by omega⟩

/-- Every entry of the array is a real number (neither infinity). -/
def IsReal {s : Shape} (v : FVec Ideal s .f32) : Prop := ∀ i, ∃ r : ℝ, v i = (r : EReal)

section
variable (x : FVec Ideal SX .f32) (wmu wsig : FVec Ideal SW .f32) (ein eout bmu bsig beps : FVec Ideal SV .f32)

/-- The bias of output column `o`. -/
def biasAt (o : Fin 2048) : EReal := bmu (ix1 o) + bsig (ix1 o) * beps (ix1 o)

/-- The layer at row `b`, column `o`, the effective weight formed first and contracted over all columns at once. -/
def fusedAt (b : Fin 1024) (o : Fin 2048) : EReal :=
  (∑ k : Fin 2048, x (ix2 b k) * (wmu (ix2 o k) + wsig (ix2 o k) * (eout (ix1 o) * ein (ix1 k)))) + biasAt bmu bsig beps o

/-- The mean path over one half `h` of the columns. -/
def meanHalf (h : Fin 1024 → Fin 2048) (b : Fin 1024) (o : Fin 2048) : EReal :=
  ∑ k : Fin 1024, x (ix2 b (h k)) * wmu (ix2 o (h k))

/-- The noise path over one half `h` of the columns, before the output noise is applied. -/
def noiseHalf (h : Fin 1024 → Fin 2048) (b : Fin 1024) (o : Fin 2048) : EReal :=
  ∑ k : Fin 1024, (x (ix2 b (h k)) * ein (ix1 (h k))) * wsig (ix2 o (h k))

/-- The layer at row `b`, column `o`, the two paths separately and the two halves of the columns in turn. -/
def twoPathAt (b : Fin 1024) (o : Fin 2048) : EReal :=
  ((((0 + meanHalf x wmu lo b o) + noiseHalf x wsig ein lo b o * eout (ix1 o)) + meanHalf x wmu hi b o)
      + noiseHalf x wsig ein hi b o * eout (ix1 o)) + biasAt bmu bsig beps o

/-- The layer as one array, the fused way. -/
def fused : FVec Ideal SX .f32 := fun j => fusedAt x wmu wsig ein eout bmu bsig beps (j 0) (j 1)

/-- The layer as one array, the two-path way. -/
def twoPath : FVec Ideal SX .f32 := fun j => twoPathAt x wmu wsig ein eout bmu bsig beps (j 0) (j 1)

end

end Cert.NoisyLinear

end
-- ==== Proof.LibDotRows.lean ====
/-
  A matrix product whose right operand is contracted on its LAST axis, read at an entry, at the ideal values.

  An `M × K` array against an `N × K` array, both contracted on their second axis, no batch axis: the entry `(p, q)` of
  the product is the sum over `k` of `lhs (p, k) · rhs (q, k)` — the rows of the left operand against the ROWS of the
  right one. At the ideal values a product into a zero accumulator is exactly that sum: no rounding and no order of
  accumulation is left in it. The lemma says so once, for all sizes and for any dimension record of this kind (a printed
  record is one up to its well-formedness proof, so the six lists are taken as hypotheses and close by `rfl`).
-/
import Idealize.ShloMosaic.PureOps.Ideal.Laws
import Idealize.ShloMosaic.Lib.ValueIdx

noncomputable section

namespace Cert.NoisyLinear

open Idealize.ShloMosaic Idealize.ShloMosaic.ValueIdx

section Rows
variable {M K N : ℕ}

/-- The dimension record of a rows-by-rows product, over any proof of its well-formedness. -/
abbrev rowsDims (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) :=
  ⟨[1], [1], [0], [0], [], [], wf⟩

variable (wf : DotDims.WF (⟨2, ![M, K]⟩ : Shape) (⟨2, ![N, K]⟩ : Shape) (⟨2, ![M, N]⟩ : Shape) [1] [1] [0] [0] [] [])

/-- The left operand's row is the result's row. -/
theorem rows_lhs0 (i : (⟨2, ![M, N]⟩ : Shape).Idx) (κ : (rowsDims wf).contr.Idx) :
    ((rowsDims wf).lhsIdx i κ 0).val = (i 0).val := rfl
/-- The left operand's column is the contraction position. -/
theorem rows_lhs1 (i : (⟨2, ![M, N]⟩ : Shape).Idx) (κ : (rowsDims wf).contr.Idx) :
    ((rowsDims wf).lhsIdx i κ 1).val = (κ ⟨0, Nat.one_pos⟩).val := rfl
/-- The right operand's row is the result's column. -/
theorem rows_rhs0 (i : (⟨2, ![M, N]⟩ : Shape).Idx) (κ : (rowsDims wf).contr.Idx) :
    ((rowsDims wf).rhsIdx i κ 0).val = (i 1).val := rfl
/-- The right operand's column is the contraction position. -/
theorem rows_rhs1 (i : (⟨2, ![M, N]⟩ : Shape).Idx) (κ : (rowsDims wf).contr.Idx) :
    ((rowsDims wf).rhsIdx i κ 1).val = (κ ⟨0, Nat.one_pos⟩).val := rfl

/-- The sum over the contraction index of a rows-by-rows product, re-indexed by `k : Fin K`. -/
theorem rows_sum {φ₁ φ₂ : FTy} (lhs : FVec Ideal (⟨2, ![M, K]⟩ : Shape) φ₁) (rhs : FVec Ideal (⟨2, ![N, K]⟩ : Shape) φ₂)
    (p : Fin M) (q : Fin N) :
    (∑ κ : (rowsDims wf).contr.Idx, lhs ((rowsDims wf).lhsIdx (ix2 p q) κ) * rhs ((rowsDims wf).rhsIdx (ix2 p q) κ))
      = ∑ k : Fin K, lhs (ix2 p k) * rhs (ix2 q k) := by
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx (ix2 p q) ((contrEquiv1 (rowsDims wf) K rfl rfl).symm k) = ix2 p k :=
    funext fun a => Fin.ext (by
      match a with
      | ⟨0, _⟩ => exact rows_lhs0 wf _ _
      | ⟨1, _⟩ => exact (rows_lhs1 wf _ _).trans hk)
  have er : (rowsDims wf).rhsIdx (ix2 p q) ((contrEquiv1 (rowsDims wf) K rfl rfl).symm k) = ix2 q k :=
    funext fun a => Fin.ext (by
      match a with
      | ⟨0, _⟩ => exact rows_rhs0 wf _ _
      | ⟨1, _⟩ => exact (rows_rhs1 wf _ _).trans hk)
  rw [el, er]

end Rows

/-- A product of rows by rows into the zero accumulator, read at entry `(p, q)`. -/
theorem matmul_rows_zero_apply {M K N : ℕ} {φ₁ φ₂ : FTy}
    (D : DotDims (⟨2, ![M, K]⟩ : Shape) (⟨2, ![N, K]⟩ : Shape) (⟨2, ![M, N]⟩ : Shape))
    (hlc : D.lhsContracting = [1]) (hrc : D.rhsContracting = [1])
    (hln : D.lhsNonContracting = [0]) (hrn : D.rhsNonContracting = [0])
    (hlb : D.lhsBatch = []) (hrb : D.rhsBatch = [])
    (prec : Option ContractPrecision)
    (lhs : FVec Ideal (⟨2, ![M, K]⟩ : Shape) φ₁) (rhs : FVec Ideal (⟨2, ![N, K]⟩ : Shape) φ₂) (p : Fin M) (q : Fin N) :
    FloatOps.matmul D prec lhs rhs (constant (⟨2, ![M, N]⟩ : Shape) .f32 0x00000000#32) (ix2 p q)
      = ∑ k : Fin K, lhs (ix2 p k) * rhs (ix2 q k) := by
  obtain ⟨lc, rc, ln, rn, lb, rb, wf⟩ := D
  dsimp only at hlc hrc hln hrn hlb hrb
  subst hlc hrc hln hrn hlb hrb
  rw [Ideal.matmul_constant_zero_apply]
  exact rows_sum wf lhs rhs p q

end Cert.NoisyLinear

end
-- ==== Proof.KernelValue.lean ====
/-
  The kernel's value: after the idealized kernel's run the result array is the noisy linear layer `fused` of the eight
  argument arrays, and the arguments are as they were.

  The kernel runs over a grid of eight points. At point `t` its body forms the effective weight of the output columns
  `256 t … 256 t + 255` — the mean weights plus the noise weights times the product of the output noise (a column,
  broadcast along the rows' entries) and the input noise (a row, broadcast down the rows) —, multiplies all of `x` by it,
  rows against rows over all 2048 columns, adds those output columns' bias, and stores the [1024, 256] result as block
  `(0, t)` of the result array. The two noise vectors as a column and a row, and the bias `bmu + bsig · beps` as a row,
  are written by the host before the region. So entry `(p, q)` of the block at `t` is the layer at row `p` and column
  `256 t + q` (`point_eq`, over the body's arithmetic read at an entry, `pay_apply`), each window's block at `t` is the
  rows or entries of its argument that this asks for (`blk_…`), and the eight blocks tile the result (`cover`).
-/
import proofs.«150211_g2000605556667554_pallasbulk_845_2_alg».proof.Proof.Gen.KernelIdeal.Value
import proofs.«150211_g2000605556667554_pallasbulk_845_2_alg».proof.Proof.Spec
import proofs.«150211_g2000605556667554_pallasbulk_845_2_alg».proof.Proof.LibDotRows
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx
open Cert.NoisyLinear

variable {α : Type}

/-! ## Two layout operations read at an index -/

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The body's arithmetic at an entry of the block -/

/-- What the body stores at entry `(p, q)` of its block: row `p` of the first operand against row `q` of the effective weight
    `v7 + v8 · (v0 ⊗ v2)` (the column `v0` and the row `v2` broadcast against each other), summed over all 2048 columns,
    plus entry `q` of the bias row. The change of format before the product is the identity on the extended reals and
    the product's accumulator is zero. -/
theorem pay_apply (v0 : FVec Ideal S256x1 .f32) (v2 : FVec Ideal S1x2048 .f32) (v7 v8 : FVec Ideal S256x2048 .f32)
    (v12 : FVec Ideal S1024x2048 .f32) (v15 : FVec Ideal S1x256 .f32) (p : Fin 1024) (q : Fin 256) :
    k0_pay1 (F := Ideal) v0 v2 v7 v8 v12 v15 (ix2 p q)
      = (∑ k : Fin 2048, v12 (ix2 p k) * (v7 (ix2 q k) + v8 (ix2 q k) * (v0 (ix2 q (0 : Fin 1)) * v2 (ix2 (0 : Fin 1) k))))
        + v15 (ix2 (0 : Fin 1) q) := by
  unfold k0_pay1
  rw [addf_apply, shapeCast_self, shapeCast_self, shapeCast_self, broadcastTo_1b_ab_apply]
  refine congrArg₂ (· + ·) ((matmul_rows_zero_apply dot_S1024x2048_S256x2048_S1024x256_1_1_0_0_n_n rfl rfl rfl rfl rfl rfl none _ _ p q).trans ?_) rfl
  refine Finset.sum_congr rfl fun k _ => ?_
  rw [truncf_apply, truncf_apply, addf_apply, mulf_apply, mulf_apply, broadcastTo_a1_ab_apply, broadcastTo_1b_ab_apply]

/-- The body's block at point `T` of the grid is block `(0, T)` of the layer: if the six loaded blocks are the rows
    `256 T … 256 T + 255` of the two weight arrays, of the output noise and of the bias, all of `x` and all of the input noise,
    then entry `(p, q)` of the body's result is the layer at row `p`, column `256 T + q`. -/
theorem point_eq (x : FVec Ideal SX .f32) (wmu wsig : FVec Ideal SW .f32) (ein eout bmu bsig beps : FVec Ideal SV .f32)
    (v0 : FVec Ideal S256x1 .f32) (v2 : FVec Ideal S1x2048 .f32) (v7 v8 : FVec Ideal S256x2048 .f32)
    (v12 : FVec Ideal S1024x2048 .f32) (v15 : FVec Ideal S1x256 .f32) (T : ℕ)
    (h0 : ∀ (q : Fin 256) (o : Fin 2048), o.val = T * 256 + q.val → v0 (ix2 q (0 : Fin 1)) = eout (ix1 o))
    (h2 : ∀ k : Fin 2048, v2 (ix2 (0 : Fin 1) k) = ein (ix1 k))
    (h7 : ∀ (q : Fin 256) (k : Fin 2048) (o : Fin 2048), o.val = T * 256 + q.val → v7 (ix2 q k) = wmu (ix2 o k))
    (h8 : ∀ (q : Fin 256) (k : Fin 2048) (o : Fin 2048), o.val = T * 256 + q.val → v8 (ix2 q k) = wsig (ix2 o k))
    (h12 : ∀ (p : Fin 1024) (k : Fin 2048), v12 (ix2 p k) = x (ix2 p k))
    (h15 : ∀ (q : Fin 256) (o : Fin 2048), o.val = T * 256 + q.val → v15 (ix2 (0 : Fin 1) q) = biasAt bmu bsig beps o)
    (p : Fin 1024) (q : Fin 256) (i : SX.Idx) (hi0 : (i 0).val = p.val) (hi1 : (i 1).val = T * 256 + q.val) :
    k0_pay1 (F := Ideal) v0 v2 v7 v8 v12 v15 (ix2 p q) = fused x wmu wsig ein eout bmu bsig beps i := by
  rw [pay_apply]
  show _ = (∑ k : Fin 2048, x (ix2 (i 0) k) * (wmu (ix2 (i 1) k) + wsig (ix2 (i 1) k) * (eout (ix1 (i 1)) * ein (ix1 k))))
      + biasAt bmu bsig beps (i 1)
  have ep : (i 0 : Fin 1024) = p := Fin.ext hi0
  rw [h15 q (i 1) hi1, h0 q (i 1) hi1, ep]
  refine congrArg₂ (· + ·) (Finset.sum_congr rfl fun k _ => ?_) rfl
  rw [h12, h7 q k (i 1) hi1, h8 q k (i 1) hi1, h2]

variable (m : (ℓ : Loc nD τ sig) → Buf (Elt Ideal) ℓ) (ρ : Dev nD → PrngReg)

/-! ## The three arrays the host writes before the region -/

/-- The output noise as the region finds it: argument 4 laid out as a column. -/
theorem V_eout (c : Dev nD) : (V m c main_call0_v0 : S2048x1.Idx → EReal)
    = shapeCast S2048x1 (m ((c : Thread nD τ).loc main_arg4) : S2048.Idx → EReal) shapeCasts_S2048_S2048x1 := by
  dsimp only [Gen.V, Gen.hostOps0]
  after_results
  rfl

/-- The input noise as the region finds it: argument 3 laid out as a row. -/
theorem V_ein (c : Dev nD) : (V m c main_call0_v1 : S1x2048.Idx → EReal)
    = shapeCast S1x2048 (m ((c : Thread nD τ).loc main_arg3) : S2048.Idx → EReal) shapeCasts_S2048_S1x2048 := by
  dsimp only [Gen.V, Gen.hostOps0]
  after_results
  rfl

/-- The bias as the region finds it: argument 5 plus argument 6 times argument 7, laid out as a row. -/
theorem V_bias (c : Dev nD) : (V m c main_call0_v4 : S1x2048.Idx → EReal)
    = shapeCast S1x2048 (addf (F := Ideal) (φ := .f32) (m ((c : Thread nD τ).loc main_arg5) : FVec Ideal S2048 .f32)
        (mulf (F := Ideal) (φ := .f32) (m ((c : Thread nD τ).loc main_arg6) : FVec Ideal S2048 .f32)
          (m ((c : Thread nD τ).loc main_arg7) : FVec Ideal S2048 .f32))) shapeCasts_S2048_S1x2048 := by
  dsimp only [Gen.V, Gen.hostOps0]
  after_results
  rfl

/-! ## Each window's block at a point of the grid -/

theorem hz : (![0, 0] : Fin 2 → Nat) = fun _ => 0 := funext fun a => by
  match a with
  | ⟨0, _⟩ => rfl
  | ⟨1, _⟩ => rfl

/-- The block indices at point `t`, decided over the eight points: `x` and the input noise are taken whole; the two weight
    arrays and the output noise's column move down their rows with `t`; the bias row and the result move along their
    columns with `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-- Window 0's block is all of `x`. -/
theorem blk_x (c : Dev nD) (t : Fin cfg0.N) (p : Fin 1024) (k : Fin 2048) :
    (iblk m c 0 t : FVec Ideal S1024x2048 .f32) (ix2 p k)
      = (m ((c : Thread nD τ).loc main_arg0) : S1024x2048.Idx → EReal) (ix2 p k) := by
  obtain ⟨e0, e1, -⟩ := idx_facts t
  unfold Gen.iblk
  rw [View.read_apply]
  show V m c main_arg0 (((cfg0.win 0).blk t).view.emb (ix2 p k)) = _
  rw [V_main_arg0]
  refine congrArg (m ((c : Thread nD τ).loc main_arg0) : S1024x2048.Idx → EReal) ?_
  funext a; apply Fin.ext
  match a with
  | ⟨0, _⟩ => show win0_0.index t (0 : Fin 2) * 1024 + 1 * p.val = p.val; omega
  | ⟨1, _⟩ => show win0_0.index t (1 : Fin 2) * 2048 + 1 * k.val = k.val; omega

/-- Window 1's block at `t` is rows `256 t … 256 t + 255` of the mean weights. -/
theorem blk_wmu (c : Dev nD) (t : Fin cfg0.N) (q : Fin 256) (k : Fin 2048) (o : Fin 2048) (ho : o.val = t.val * 256 + q.val) :
    (iblk m c 1 t : FVec Ideal S256x2048 .f32) (ix2 q k)
      = (m ((c : Thread nD τ).loc main_arg1) : S2048x2048.Idx → EReal) (ix2 o k) := by
  obtain ⟨-, -, e0, e1, -⟩ := idx_facts t
  unfold Gen.iblk
  rw [View.read_apply]
  show V m c main_arg1 (((cfg0.win 1).blk t).view.emb (ix2 q k)) = _
  rw [V_main_arg1]
  refine congrArg (m ((c : Thread nD τ).loc main_arg1) : S2048x2048.Idx → EReal) ?_
  funext a; apply Fin.ext
  match a with
  | ⟨0, _⟩ => show win0_1.index t (0 : Fin 2) * 256 + 1 * q.val = o.val; omega
  | ⟨1, _⟩ => show win0_1.index t (1 : Fin 2) * 2048 + 1 * k.val = k.val; omega

/-- Window 2's block at `t` is rows `256 t … 256 t + 255` of the noise weights. -/
theorem blk_wsig (c : Dev nD) (t : Fin cfg0.N) (q : Fin 256) (k : Fin 2048) (o : Fin 2048) (ho : o.val = t.val * 256 + q.val) :
    (iblk m c 2 t : FVec Ideal S256x2048 .f32) (ix2 q k)
      = (m ((c : Thread nD τ).loc main_arg2) : S2048x2048.Idx → EReal) (ix2 o k) := by
  obtain ⟨-, -, -, -, e0, e1, -⟩ := idx_facts t
  unfold Gen.iblk
  rw [View.read_apply]
  show V m c main_arg2 (((cfg0.win 2).blk t).view.emb (ix2 q k)) = _
  rw [V_main_arg2]
  refine congrArg (m ((c : Thread nD τ).loc main_arg2) : S2048x2048.Idx → EReal) ?_
  funext a; apply Fin.ext
  match a with
  | ⟨0, _⟩ => show win0_2.index t (0 : Fin 2) * 256 + 1 * q.val = o.val; omega
  | ⟨1, _⟩ => show win0_2.index t (1 : Fin 2) * 2048 + 1 * k.val = k.val; omega

/-- Window 3's block at `t` is entries `256 t … 256 t + 255` of the output noise. -/
theorem blk_eout (c : Dev nD) (t : Fin cfg0.N) (q : Fin 256) (o : Fin 2048) (ho : o.val = t.val * 256 + q.val) :
    (iblk m c 3 t : FVec Ideal S256x1 .f32) (ix2 q (0 : Fin 1))
      = (m ((c : Thread nD τ).loc main_arg4) : S2048.Idx → EReal) (ix1 o) := by
  obtain ⟨-, -, -, -, -, -, e0, e1, -⟩ := idx_facts t
  unfold Gen.iblk
  rw [View.read_apply]
  show (V m c main_call0_v0 : S2048x1.Idx → EReal) (((cfg0.win 3).blk t).view.emb (ix2 q (0 : Fin 1))) = _
  rw [V_eout]
  refine (congrArg _ (?_ : _ = ix2 o (0 : Fin 1))).trans (shapeCast_a_a1_apply _ _ o 0)
  funext a; apply Fin.ext
  match a with
  | ⟨0, _⟩ => show win0_3.index t (0 : Fin 2) * 256 + 1 * q.val = o.val; omega
  | ⟨1, _⟩ => show win0_3.index t (1 : Fin 2) * 1 + 1 * 0 = 0; omega

/-- Window 4's block is all of the input noise. -/
theorem blk_ein (c : Dev nD) (t : Fin cfg0.N) (k : Fin 2048) :
    (iblk m c 4 t : FVec Ideal S1x2048 .f32) (ix2 (0 : Fin 1) k)
      = (m ((c : Thread nD τ).loc main_arg3) : S2048.Idx → EReal) (ix1 k) := by
  obtain ⟨-, -, -, -, -, -, -, -, e0, e1, -⟩ := idx_facts t
  unfold Gen.iblk
  rw [View.read_apply]
  show (V m c main_call0_v1 : S1x2048.Idx → EReal) (((cfg0.win 4).blk t).view.emb (ix2 (0 : Fin 1) k)) = _
  rw [V_ein]
  refine (congrArg _ (?_ : _ = ix2 (0 : Fin 1) k)).trans (shapeCast_a_1a_apply _ _ 0 k)
  funext a; apply Fin.ext
  match a with
  | ⟨0, _⟩ => show win0_4.index t (0 : Fin 2) * 1 + 1 * 0 = 0; omega
  | ⟨1, _⟩ => show win0_4.index t (1 : Fin 2) * 2048 + 1 * k.val = k.val; omega

/-- Window 5's block at `t` is entries `256 t … 256 t + 255` of the bias. -/
theorem blk_bias (c : Dev nD) (t : Fin cfg0.N) (q : Fin 256) (o : Fin 2048) (ho : o.val = t.val * 256 + q.val) :
    (iblk m c 5 t : FVec Ideal S1x256 .f32) (ix2 (0 : Fin 1) q)
      = biasAt (m ((c : Thread nD τ).loc main_arg5)) (m ((c : Thread nD τ).loc main_arg6)) (m ((c : Thread nD τ).loc main_arg7)) o := by
  obtain ⟨-, -, -, -, -, -, -, -, -, -, e0, e1, -⟩ := idx_facts t
  unfold Gen.iblk
  rw [View.read_apply]
  show (V m c main_call0_v4 : S1x2048.Idx → EReal) (((cfg0.win 5).blk t).view.emb (ix2 (0 : Fin 1) q)) = _
  rw [V_bias]
  refine (congrArg _ (?_ : _ = ix2 (0 : Fin 1) o)).trans ((shapeCast_a_1a_apply _ _ 0 o).trans rfl)
  funext a; apply Fin.ext
  match a with
  | ⟨0, _⟩ => show win0_5.index t (0 : Fin 2) * 1 + 1 * 0 = 0; omega
  | ⟨1, _⟩ => show win0_5.index t (1 : Fin 2) * 256 + 1 * q.val = o.val; omega

/-! ## From the blocks to the array -/

/-- The body's result at point `t`, entry by entry, is the layer read through the result's block at `t`. -/
theorem block_point (c : Dev nD) (t : Fin cfg0.N) (j : S1024x256.Idx) :
    k0_pay1 (F := Ideal) (iblk m c 3 t) (iblk m c 4 t) (iblk m c 1 t) (iblk m c 2 t) (iblk m c 0 t) (iblk m c 5 t) j
      = Cert.NoisyLinear.fused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 6).blk t).view.emb j) := by
  obtain ⟨p, q, rfl⟩ : ∃ (p : Fin 1024) (q : Fin 256), j = ix2 p q := ⟨j 0, j 1, eq_ix2 j⟩
  have e6 := (idx_facts t).2.2.2.2.2.2.2.2.2.2.2.2
  refine point_eq _ _ _ _ _ _ _ _ _ _ _ _ _ _ t.val (fun q o ho => blk_eout m c t q o ho) (fun k => blk_ein m c t k)
    (fun q k o ho => blk_wmu m c t q k o ho) (fun q k o ho => blk_wsig m c t q k o ho) (fun p k => blk_x m c t p k)
    (fun q o ho => blk_bias m c t q o ho) p q _ ?_ ?_
  · show win0_6.index t (0 : Fin 2) * 1024 + 1 * p.val = p.val
    omega
  · show win0_6.index t (1 : Fin 2) * 256 + 1 * q.val = t.val * 256 + q.val
    omega

/-- What point `t` writes back is block `t` of the layer. -/
theorem flushed_eq (c : Dev nD) (t : Fin cfg0.N) :
    (dats m 0 c).flushed 6 t = ((cfg0.win 6).blk t).view.read (Elt Ideal) (Cert.NoisyLinear.fused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed6]
  unfold Gen.out0_6
  rw [View.canon_unit_zero hz]
  simp only [View.ld_unit_zero (S := S256x1) hz, View.ld_unit_zero (S := S1x2048) hz, View.ld_unit_zero (S := S256x2048) hz,
    View.ld_unit_zero (S := S1024x2048) hz, View.ld_unit_zero (S := S1x256) hz]
  funext j
  exact block_point m c t j

/-- An index of the result is in point `t`'s block iff each coordinate is in the block's range on its axis. -/
theorem mem_blk (t : Fin cfg0.N) (i : S1024x2048.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_v0).slice (win0_6.rect t)).set ↔ _
  rw [View.set_slice_whole, Rect.mem_set_unit]
  exact Iff.rfl

/-- The eight blocks cover the result: column `o` is in the block of point `o / 256`. -/
theorem cover (i : S1024x2048.Idx) :
    ∃ t : Fin cfg0.N, (cfg0.win 6).flush t = true ∧ i ∈ ((cfg0.win 6).blk t).view.set := by
  have h0 : (i 0).val < 1024 := idx2_lt0 i
  have h1 : (i 1).val < 2048 := idx2_lt1 i
  have hN : cfg0.N = 8 := N_0
  obtain ⟨t, ht⟩ : ∃ t : Fin cfg0.N, t.val = (i 1).val / 256 := ⟨⟨(i 1).val / 256, by rw [hN]; omega⟩, rfl⟩
  have e6 := (idx_facts t).2.2.2.2.2.2.2.2.2.2.2.2
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 256 ≤ (i 1).val ∧ (i 1).val < win0_6.index t (1 : Fin 2) * 256 + 256
    omega

/-- The result array after the run is the layer. -/
theorem final (c : Dev nD) : (dats m 0 c).arrAt 6 cfg0.N = Cert.NoisyLinear.fused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 6 (Cert.NoisyLinear.fused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed_eq m c t) cover

/-! ## The run, read -/

/-- The kernel's run: the result array ends holding the layer of the eight argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = Cert.NoisyLinear.fused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks (F := Ideal) m ρ)

end Cert.KernelIdeal.Whole

end
-- ==== Proof.RefValue.lean ====
/-
  The reference's value: after the idealized reference's run the result array is the noisy linear layer, computed the
  two-path way (`twoPath`), of the eight argument arrays, and the arguments are as they were.

  The reference is itself a blocked kernel over a grid of 4 × 4 × 2 points in row-major order: point `t` is row block
  `t / 8` (256 rows), column block `t / 2 % 4` (512 output columns) and half `t % 2` of the 2048 contracted columns. It
  keeps a [256, 512] accumulator across points. At an even point it stores zero into the accumulator, adds the mean path of
  the lower half, rows of `x` against rows of the mean weights, and then the noise path of the lower half, rows of
  `x · ein` against rows of the noise weights, the product scaled by `eout`; nothing is written back. At the odd point that
  follows it adds the same two terms of the upper half onto what the even point left, adds the bias row, and that sum
  is written back as block `(t / 8, t / 2 % 4)` of the result. So what an odd point writes depends on the point before it
  and on no earlier one: two steps, no induction. The two noise vectors and the bias `bmu + bsig · beps` reach the kernel as
  [1, 2048] rows the host prepares. Below: what each point leaves as the body's arithmetic of its blocks
  (`scratch_A`, `scratch_B`, `out_B`); that arithmetic read at an entry (`reset_apply` … `bias_apply`, `point_value`); the
  host's rows (`ein_row`, `eout_row`, `bias_row`); each window's block read where it lies in its array (`x_blk` …
  `bias_blk`); what an odd point writes back (`flushed_eq`); the sixteen odd points' blocks tile the result (`cover`).
-/
import proofs.«150211_g2000605556667554_pallasbulk_845_2_alg».proof.Proof.Gen.ReferenceIdeal.Value
import proofs.«150211_g2000605556667554_pallasbulk_845_2_alg».proof.Proof.Spec
import proofs.«150211_g2000605556667554_pallasbulk_845_2_alg».proof.Proof.LibDotRows
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.ReferenceIdeal.Whole

open Cert.ReferenceIdeal Cert.ReferenceIdeal.Gen

variable {F : FTy → Type} [FloatOps F]

theorem hz : (![0, 0] : Fin 2 → Nat) = fun _ => 0 := funext fun a => by fin_cases a <;> rfl

/-- A load of the whole buffer after a store of the whole buffer, LAST of several, reads that store's payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- What an even point leaves in the accumulator. -/
theorem scratch_A (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (hc0 : cond0_0 i) (hc1 : ¬cond0_1 i)
    (x0 : Vec F S256x1024 .f32) (x1 : Vec F S512x1024 .f32) (x2 : Vec F S512x1024 .f32) (x3 : Vec F S1x1024 .f32) (x4 : Vec F S1x512 .f32) (x5 : Vec F S1x512 .f32) :
    sout0_A_0 c i arg3 harg3 arg4 harg4 arg5 harg5 arg6 harg6 arg7 harg7 arg8 harg8 arg9 harg9 arg10 harg10 hc0 hc1 x0 x1 x2 x3 x4 x5
      = k0_pay3 x0 (k0_pay2 x0 (k0_pay1 (F := F)) x1) x3 x2 x4 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S256x512) hz]
  simp only [View.readAt_eq_ld, harg3.read_unread, harg4.read_unread, harg5.read_unread, harg6.read_unread, harg7.read_unread, harg8.read_unread, harg10.read_unread,
    View.ld_unit_zero (S := S256x1024) hz, View.ld_unit_zero (S := S512x1024) hz, View.ld_unit_zero (S := S1x1024) hz, View.ld_unit_zero (S := S1x512) hz, View.ld_unit_zero (S := S256x512) hz,
    View.readCov_unit_zero (S := S256x512) _ hz, readCov_cons_unit_zero (S := S256x512) _ hz]

/-- What an odd point leaves in the accumulator, over what the point before left. -/
theorem scratch_B (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (hc0 : ¬cond0_0 i) (hc1 : cond0_1 i)
    (x0 : Vec F S256x1024 .f32) (x1 : Vec F S512x1024 .f32) (x2 : Vec F S512x1024 .f32) (x3 : Vec F S1x1024 .f32) (x4 : Vec F S1x512 .f32) (x5 : Vec F S1x512 .f32) (xs0 : Vec F S256x512 .f32) :
    sout0_B_0 c i arg3 harg3 arg4 harg4 arg5 harg5 arg6 harg6 arg7 harg7 arg8 harg8 arg9 harg9 arg10 harg10 hc0 hc1 x0 x1 x2 x3 x4 x5 xs0
      = k0_pay3 x0 (k0_pay2 x0 xs0 x1) x3 x2 x4 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_cons_unit_zero (S := S256x512) hz]
  simp only [View.readAt_eq_ld, harg3.read_unread, harg4.read_unread, harg5.read_unread, harg6.read_unread, harg7.read_unread, harg8.read_unread, harg10.read_unread,
    View.ld_unit_zero (S := S256x1024) hz, View.ld_unit_zero (S := S512x1024) hz, View.ld_unit_zero (S := S1x1024) hz, View.ld_unit_zero (S := S1x512) hz, View.ld_unit_zero (S := S256x512) hz,
    View.readCov_unit_zero (S := S256x512) _ hz, readCov_cons_unit_zero (S := S256x512) _ hz]

/-- What an odd point leaves in the result's block, over what the point before left in the accumulator. -/
theorem out_B (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S256x512 .f32) (harg10 : arg10.IsWhole) (hc0 : ¬cond0_0 i) (hc1 : cond0_1 i)
    (x0 : Vec F S256x1024 .f32) (x1 : Vec F S512x1024 .f32) (x2 : Vec F S512x1024 .f32) (x3 : Vec F S1x1024 .f32) (x4 : Vec F S1x512 .f32) (x5 : Vec F S1x512 .f32) (xs0 : Vec F S256x512 .f32) :
    out0_B_6 c i arg3 harg3 arg4 harg4 arg5 harg5 arg6 harg6 arg7 harg7 arg8 harg8 arg9 harg9 arg10 harg10 hc0 hc1 x0 x1 x2 x3 x4 x5 xs0
      = k0_pay4 (k0_pay3 x0 (k0_pay2 x0 xs0 x1) x3 x2 x4) x5 := by
  unfold out0_B_6
  rw [View.read_writes_eq_canon _ _ _ (cover0_B_6 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero (S := S256x512) hz]
  simp only [View.readAt_eq_ld, harg3.read_unread, harg4.read_unread, harg5.read_unread, harg6.read_unread, harg7.read_unread, harg8.read_unread, harg10.read_unread,
    View.ld_unit_zero (S := S256x1024) hz, View.ld_unit_zero (S := S512x1024) hz, View.ld_unit_zero (S := S1x1024) hz, View.ld_unit_zero (S := S1x512) hz, View.ld_unit_zero (S := S256x512) hz,
    View.readCov_unit_zero (S := S256x512) _ hz, readCov_cons_unit_zero (S := S256x512) _ hz]

/-! ## The body's arithmetic at an entry, at the ideal values -/

section AtIdeal

open Cert.NoisyLinear Idealize.ShloMosaic.ValueIdx

/-- The reset stores zero. -/
theorem reset_apply (p : Fin 256) (q : Fin 512) : (k0_pay1 (F := Ideal)) (ix2 p q) = 0 := by
  unfold k0_pay1
  simp only [shapeCast_self]
  exact Ideal.ofBits_zero_f32

/-- The mean path's update: the accumulator plus rows of `x` against rows of the mean weights. -/
theorem mean_apply (v3 : Vec Ideal S256x1024 .f32) (v4 : Vec Ideal S256x512 .f32) (v5 : Vec Ideal S512x1024 .f32)
    (p : Fin 256) (q : Fin 512) :
    k0_pay2 v3 v4 v5 (ix2 p q) = v4 (ix2 p q) + ∑ k : Fin 1024, v3 (ix2 p k) * v5 (ix2 q k) := by
  unfold k0_pay2
  simp only [shapeCast_self]
  rw [addf_apply]
  exact congrArg (v4 (ix2 p q) + ·) (matmul_rows_zero_apply _ rfl rfl rfl rfl rfl rfl none v3 v5 p q)

/-- The noise path's update: the accumulator plus (rows of `x · ein` against rows of the noise weights) times `eout`. -/
theorem noise_apply (v3 : Vec Ideal S256x1024 .f32) (v11 : Vec Ideal S256x512 .f32) (v12 : Vec Ideal S1x1024 .f32)
    (v16 : Vec Ideal S512x1024 .f32) (v18 : Vec Ideal S1x512 .f32) (p : Fin 256) (q : Fin 512) :
    k0_pay3 v3 v11 v12 v16 v18 (ix2 p q)
      = v11 (ix2 p q) + (∑ k : Fin 1024, (v3 (ix2 p k) * v12 (ix2 (0 : Fin 1) k)) * v16 (ix2 q k)) * v18 (ix2 (0 : Fin 1) q) := by
  unfold k0_pay3
  simp only [shapeCast_self]
  rw [addf_apply, mulf_apply, broadcastTo_1b_ab_apply]
  refine congrArg (fun s => v11 (ix2 p q) + s * v18 (ix2 (0 : Fin 1) q)) ?_
  refine (matmul_rows_zero_apply _ rfl rfl rfl rfl rfl rfl none _ v16 p q).trans ?_
  refine Finset.sum_congr rfl fun k _ => ?_
  rw [mulf_apply, broadcastTo_1b_ab_apply]

/-- The last step: the accumulator plus the bias row. -/
theorem bias_apply (v29 : Vec Ideal S256x512 .f32) (v30 : Vec Ideal S1x512 .f32) (p : Fin 256) (q : Fin 512) :
    k0_pay4 v29 v30 (ix2 p q) = v29 (ix2 p q) + v30 (ix2 (0 : Fin 1) q) := by
  unfold k0_pay4
  simp only [shapeCast_self]
  rw [addf_apply, broadcastTo_1b_ab_apply]

end AtIdeal

/-! ## The three rows the host prepares -/

section Host

open Cert.NoisyLinear Idealize.ShloMosaic.ValueIdx

variable (m : (ℓ : Loc nD τ sig) → Buf (Elt Ideal) ℓ)

/-- The input noise as a row. -/
theorem ein_row (c : Dev nD) (k : Fin 2048) :
    (V m c main_call0_v0 : S1x2048.Idx → EReal) (ix2 (0 : Fin 1) k) = m ((c : Thread nD τ).loc main_arg3) (ix1 k) := by
  have e : (V m c main_call0_v0 : S1x2048.Idx → EReal)
      = shapeCast S1x2048 (m ((c : Thread nD τ).loc main_arg3)) shapeCasts_S2048_S1x2048 := by
    dsimp only [Gen.V, Gen.hostOps0]; after_results; rfl
  rw [e]
  exact shapeCast_a_1a_apply _ _ _ _

/-- The output noise as a row. -/
theorem eout_row (c : Dev nD) (k : Fin 2048) :
    (V m c main_call0_v1 : S1x2048.Idx → EReal) (ix2 (0 : Fin 1) k) = m ((c : Thread nD τ).loc main_arg4) (ix1 k) := by
  have e : (V m c main_call0_v1 : S1x2048.Idx → EReal)
      = shapeCast S1x2048 (m ((c : Thread nD τ).loc main_arg4)) shapeCasts_S2048_S1x2048 := by
    dsimp only [Gen.V, Gen.hostOps0]; after_results; rfl
  rw [e]
  exact shapeCast_a_1a_apply _ _ _ _

/-- The bias as a row. -/
theorem bias_row (c : Dev nD) (k : Fin 2048) :
    (V m c main_call0_v4 : S1x2048.Idx → EReal) (ix2 (0 : Fin 1) k)
      = biasAt (m ((c : Thread nD τ).loc main_arg5)) (m ((c : Thread nD τ).loc main_arg6)) (m ((c : Thread nD τ).loc main_arg7)) k := by
  have e : (V m c main_call0_v4 : S1x2048.Idx → EReal)
      = shapeCast S1x2048 (addf (F := Ideal) (s := S2048) (φ := .f32) (m ((c : Thread nD τ).loc main_arg5) : FVec Ideal S2048 .f32)
          (mulf (F := Ideal) (s := S2048) (φ := .f32) (m ((c : Thread nD τ).loc main_arg6) : FVec Ideal S2048 .f32) (m ((c : Thread nD τ).loc main_arg7) : FVec Ideal S2048 .f32)))
        shapeCasts_S2048_S1x2048 := by
    dsimp only [Gen.V, Gen.hostOps0]; after_results; rfl
  rw [e]
  exact shapeCast_a_1a_apply _ _ _ _

end Host

/-! ## From the blocks to the array -/

section Blocks

open Cert.NoisyLinear Idealize.ShloMosaic.ValueIdx

variable (m : (ℓ : Loc nD τ sig) → Buf (Elt Ideal) ℓ)

/-- The grid is (row block, column block, half) in row-major order: which block each window holds at a point. -/
theorem idx_facts : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = t.val / 2 % 4 ∧ win0_2.index t (1 : Fin 2) = t.val % 2
    ∧ win0_3.index t (0 : Fin 2) = 0 ∧ win0_3.index t (1 : Fin 2) = t.val % 2
    ∧ win0_4.index t (0 : Fin 2) = 0 ∧ win0_4.index t (1 : Fin 2) = t.val / 2 % 4
    ∧ win0_5.index t (0 : Fin 2) = 0 ∧ win0_5.index t (1 : Fin 2) = t.val / 2 % 4
    ∧ win0_6.index t (0 : Fin 2) = t.val / 8 ∧ win0_6.index t (1 : Fin 2) = t.val / 2 % 4 :=
  (by decide +kernel : ∀ t : Fin grid0.N, _)

/-- One whole odd point, over any blocks: the two halves' updates onto zero, then the bias. -/
theorem point_value (xa xb : Vec Ideal S256x1024 .f32) (ma mb sa sb : Vec Ideal S512x1024 .f32)
    (ea eb : Vec Ideal S1x1024 .f32) (oa ob bb : Vec Ideal S1x512 .f32) (p : Fin 256) (q : Fin 512) :
    k0_pay4 (k0_pay3 xb (k0_pay2 xb (k0_pay3 xa (k0_pay2 xa (k0_pay1 (F := Ideal)) ma) ea sa oa) mb) eb sb ob) bb (ix2 p q)
      = ((((0 + ∑ k : Fin 1024, xa (ix2 p k) * ma (ix2 q k))
            + (∑ k : Fin 1024, (xa (ix2 p k) * ea (ix2 (0 : Fin 1) k)) * sa (ix2 q k)) * oa (ix2 (0 : Fin 1) q))
          + ∑ k : Fin 1024, xb (ix2 p k) * mb (ix2 q k))
        + (∑ k : Fin 1024, (xb (ix2 p k) * eb (ix2 (0 : Fin 1) k)) * sb (ix2 q k)) * ob (ix2 (0 : Fin 1) q))
        + bb (ix2 (0 : Fin 1) q) := by
  rw [bias_apply, noise_apply, mean_apply, noise_apply, mean_apply, reset_apply]

/-- A block of `x` read where it lies in the array. -/
theorem x_blk (c : Dev nD) (t : Fin cfg0.N) (b : Fin 1024) (kk : Fin 2048) (p : Fin 256) (k : Fin 1024)
    (hb : win0_0.index t (0 : Fin 2) * 256 + p.val = b.val) (hk : win0_0.index t (1 : Fin 2) * 1024 + k.val = kk.val) :
    (iblk m c 0 t : Vec Ideal S256x1024 .f32) (ix2 p k) = m ((c : Thread nD τ).loc main_arg0) (ix2 b kk) := by
  refine Eq.trans ?_ (congrFun (V_main_arg0 m c) _)
  show V m c main_arg0 (((cfg0.win 0).blk t).view.emb (ix2 p k)) = V m c main_arg0 (ix2 b kk)
  congr 1
  funext a; apply Fin.ext
  match a with
  | ⟨0, _⟩ => show win0_0.index t (0 : Fin 2) * 256 + 1 * p.val = b.val; omega
  | ⟨1, _⟩ => show win0_0.index t (1 : Fin 2) * 1024 + 1 * k.val = kk.val; omega

end Blocks

section Blocks2

open Cert.NoisyLinear Idealize.ShloMosaic.ValueIdx

variable (m : (ℓ : Loc nD τ sig) → Buf (Elt Ideal) ℓ)

/-- A block of the mean weights read where it lies in the array. -/
theorem wmu_blk (c : Dev nD) (t : Fin cfg0.N) (o kk : Fin 2048) (q : Fin 512) (k : Fin 1024)
    (ho : win0_1.index t (0 : Fin 2) * 512 + q.val = o.val) (hk : win0_1.index t (1 : Fin 2) * 1024 + k.val = kk.val) :
    (iblk m c 1 t : Vec Ideal S512x1024 .f32) (ix2 q k) = m ((c : Thread nD τ).loc main_arg1) (ix2 o kk) := by
  refine Eq.trans ?_ (congrFun (V_main_arg1 m c) _)
  show V m c main_arg1 (((cfg0.win 1).blk t).view.emb (ix2 q k)) = V m c main_arg1 (ix2 o kk)
  congr 1
  funext a; apply Fin.ext
  match a with
  | ⟨0, _⟩ => show win0_1.index t (0 : Fin 2) * 512 + 1 * q.val = o.val; omega
  | ⟨1, _⟩ => show win0_1.index t (1 : Fin 2) * 1024 + 1 * k.val = kk.val; omega

/-- A block of the noise weights read where it lies in the array. -/
theorem wsig_blk (c : Dev nD) (t : Fin cfg0.N) (o kk : Fin 2048) (q : Fin 512) (k : Fin 1024)
    (ho : win0_2.index t (0 : Fin 2) * 512 + q.val = o.val) (hk : win0_2.index t (1 : Fin 2) * 1024 + k.val = kk.val) :
    (iblk m c 2 t : Vec Ideal S512x1024 .f32) (ix2 q k) = m ((c : Thread nD τ).loc main_arg2) (ix2 o kk) := by
  refine Eq.trans ?_ (congrFun (V_main_arg2 m c) _)
  show V m c main_arg2 (((cfg0.win 2).blk t).view.emb (ix2 q k)) = V m c main_arg2 (ix2 o kk)
  congr 1
  funext a; apply Fin.ext
  match a with
  | ⟨0, _⟩ => show win0_2.index t (0 : Fin 2) * 512 + 1 * q.val = o.val; omega
  | ⟨1, _⟩ => show win0_2.index t (1 : Fin 2) * 1024 + 1 * k.val = kk.val; omega

/-- A block of the input-noise row read where it lies in the vector. -/
theorem ein_blk (c : Dev nD) (t : Fin cfg0.N) (kk : Fin 2048) (k : Fin 1024)
    (h0 : win0_3.index t (0 : Fin 2) = 0) (hk : win0_3.index t (1 : Fin 2) * 1024 + k.val = kk.val) :
    (iblk m c 3 t : Vec Ideal S1x1024 .f32) (ix2 (0 : Fin 1) k) = m ((c : Thread nD τ).loc main_arg3) (ix1 kk) := by
  refine Eq.trans ?_ (ein_row m c kk)
  show V m c main_call0_v0 (((cfg0.win 3).blk t).view.emb (ix2 (0 : Fin 1) k)) = V m c main_call0_v0 (ix2 (0 : Fin 1) kk)
  congr 1
  funext a; apply Fin.ext
  match a with
  | ⟨0, _⟩ => show win0_3.index t (0 : Fin 2) * 1 + 1 * 0 = 0; omega
  | ⟨1, _⟩ => show win0_3.index t (1 : Fin 2) * 1024 + 1 * k.val = kk.val; omega

/-- A block of the output-noise row read where it lies in the vector. -/
theorem eout_blk (c : Dev nD) (t : Fin cfg0.N) (o : Fin 2048) (q : Fin 512)
    (h0 : win0_4.index t (0 : Fin 2) = 0) (ho : win0_4.index t (1 : Fin 2) * 512 + q.val = o.val) :
    (iblk m c 4 t : Vec Ideal S1x512 .f32) (ix2 (0 : Fin 1) q) = m ((c : Thread nD τ).loc main_arg4) (ix1 o) := by
  refine Eq.trans ?_ (eout_row m c o)
  show V m c main_call0_v1 (((cfg0.win 4).blk t).view.emb (ix2 (0 : Fin 1) q)) = V m c main_call0_v1 (ix2 (0 : Fin 1) o)
  congr 1
  funext a; apply Fin.ext
  match a with
  | ⟨0, _⟩ => show win0_4.index t (0 : Fin 2) * 1 + 1 * 0 = 0; omega
  | ⟨1, _⟩ => show win0_4.index t (1 : Fin 2) * 512 + 1 * q.val = o.val; omega

/-- A block of the bias row read where it lies in the vector. -/
theorem bias_blk (c : Dev nD) (t : Fin cfg0.N) (o : Fin 2048) (q : Fin 512)
    (h0 : win0_5.index t (0 : Fin 2) = 0) (ho : win0_5.index t (1 : Fin 2) * 512 + q.val = o.val) :
    (iblk m c 5 t : Vec Ideal S1x512 .f32) (ix2 (0 : Fin 1) q)
      = biasAt (m ((c : Thread nD τ).loc main_arg5)) (m ((c : Thread nD τ).loc main_arg6)) (m ((c : Thread nD τ).loc main_arg7)) o := by
  refine Eq.trans ?_ (bias_row m c o)
  show V m c main_call0_v4 (((cfg0.win 5).blk t).view.emb (ix2 (0 : Fin 1) q)) = V m c main_call0_v4 (ix2 (0 : Fin 1) o)
  congr 1
  funext a; apply Fin.ext
  match a with
  | ⟨0, _⟩ => show win0_5.index t (0 : Fin 2) * 1 + 1 * 0 = 0; omega
  | ⟨1, _⟩ => show win0_5.index t (1 : Fin 2) * 512 + 1 * q.val = o.val; omega

/-- The layer, the two-path way, of the argument arrays as launched: what the result array ends holding. -/
abbrev result (c : Dev nD) : Buf (Elt Ideal) ((c : Thread nD τ).loc main_v0) :=
  twoPath (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What an odd point writes back is its block of the layer: the even point before it reset the accumulator and added the
    lower half of the columns, this point adds the upper half and the bias. -/
theorem flushed_eq (c : Dev nD) (t : Fin cfg0.N) (hf : (cfg0.win 6).flush t = true) :
    (dats m 0 c).flushed 6 t = ((cfg0.win 6).blk t).view.read (Elt Ideal) (result m c) := by
  have hN : t.val < 32 := lt_of_lt_of_eq t.isLt (show cfg0.N = 32 from N_0)
  have h1 : t.val % 2 = 1 := (flush0_6 t).mp hf
  have h0 : ¬ t.val % 2 = 0 := by omega
  rw [Value.flushed6_B m c t h0 h1]
  have hlt : t.val - 1 < cfg0.N := Nat.lt_of_le_of_lt (Nat.sub_le _ _) t.isLt
  have hp0 : (⟨t.val - 1, hlt⟩ : Fin cfg0.N).val % 2 = 0 := by dsimp only; omega
  have hp1 : ¬ (⟨t.val - 1, hlt⟩ : Fin cfg0.N).val % 2 = 1 := by dsimp only; omega
  rw [show outsAt0 m c (t.val - 1) hlt = _ from outsAt0_A m c ⟨t.val - 1, hlt⟩ hp0 hp1]
  dsimp only
  rw [out_B, scratch_A]
  obtain ⟨f0, f1, f2, f3, f4, f5, f6, f7, f8, f9, f10, f11, f12, f13⟩ := idx_facts t
  obtain ⟨g0, g1, g2, g3, g4, g5, g6, g7, g8, g9, g10, g11, g12, g13⟩ := idx_facts ⟨t.val - 1, hlt⟩
  dsimp only at g0 g1 g2 g3 g4 g5 g6 g7 g8 g9 g10 g11
  funext y
  obtain ⟨p, q, rfl⟩ : ∃ (p : Fin 256) (q : Fin 512), y = ix2 p q := ⟨y 0, y 1, eq_ix2 y⟩
  have hp := p.isLt
  have hq := q.isLt
  have hb : t.val / 8 * 256 + p.val < 1024 := by omega
  have ho : t.val / 2 % 4 * 512 + q.val < 2048 := by omega
  refine Eq.trans (point_value (iblk m c 0 ⟨t.val - 1, hlt⟩) (iblk m c 0 t) (iblk m c 1 ⟨t.val - 1, hlt⟩) (iblk m c 1 t)
    (iblk m c 2 ⟨t.val - 1, hlt⟩) (iblk m c 2 t) (iblk m c 3 ⟨t.val - 1, hlt⟩) (iblk m c 3 t)
    (iblk m c 4 ⟨t.val - 1, hlt⟩) (iblk m c 4 t) (iblk m c 5 t) p q) ?_
  have hemb : ((cfg0.win 6).blk t).view.emb (ix2 p q)
      = (ix2 (⟨t.val / 8 * 256 + p.val, hb⟩ : Fin 1024) (⟨t.val / 2 % 4 * 512 + q.val, ho⟩ : Fin 2048) : S1024x2048.Idx) := by
    funext a; apply Fin.ext
    match a with
    | ⟨0, _⟩ => show win0_6.index t (0 : Fin 2) * 256 + 1 * p.val = t.val / 8 * 256 + p.val; omega
    | ⟨1, _⟩ => show win0_6.index t (1 : Fin 2) * 512 + 1 * q.val = t.val / 2 % 4 * 512 + q.val; omega
  refine Eq.trans ?_ (congrArg (result m c) hemb).symm
  show _ = twoPathAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
    (⟨t.val / 8 * 256 + p.val, hb⟩ : Fin 1024) (⟨t.val / 2 % 4 * 512 + q.val, ho⟩ : Fin 2048)
  unfold twoPathAt meanHalf noiseHalf
  have xa : ∀ k : Fin 1024, (iblk m c 0 ⟨t.val - 1, hlt⟩ : Vec Ideal S256x1024 .f32) (ix2 p k)
      = m ((c : Thread nD τ).loc main_arg0) (ix2 (⟨t.val / 8 * 256 + p.val, hb⟩ : Fin 1024) (lo k)) := fun k =>
    x_blk m c ⟨t.val - 1, hlt⟩ _ (lo k) p k (by show _ = t.val / 8 * 256 + p.val; omega) (by show _ = k.val; omega)
  have xb : ∀ k : Fin 1024, (iblk m c 0 t : Vec Ideal S256x1024 .f32) (ix2 p k)
      = m ((c : Thread nD τ).loc main_arg0) (ix2 (⟨t.val / 8 * 256 + p.val, hb⟩ : Fin 1024) (hi k)) := fun k =>
    x_blk m c t _ (hi k) p k (by show _ = t.val / 8 * 256 + p.val; omega) (by show _ = 1024 + k.val; omega)
  have ma : ∀ k : Fin 1024, (iblk m c 1 ⟨t.val - 1, hlt⟩ : Vec Ideal S512x1024 .f32) (ix2 q k)
      = m ((c : Thread nD τ).loc main_arg1) (ix2 (⟨t.val / 2 % 4 * 512 + q.val, ho⟩ : Fin 2048) (lo k)) := fun k =>
    wmu_blk m c ⟨t.val - 1, hlt⟩ _ (lo k) q k (by show _ = t.val / 2 % 4 * 512 + q.val; omega) (by show _ = k.val; omega)
  have mb : ∀ k : Fin 1024, (iblk m c 1 t : Vec Ideal S512x1024 .f32) (ix2 q k)
      = m ((c : Thread nD τ).loc main_arg1) (ix2 (⟨t.val / 2 % 4 * 512 + q.val, ho⟩ : Fin 2048) (hi k)) := fun k =>
    wmu_blk m c t _ (hi k) q k (by show _ = t.val / 2 % 4 * 512 + q.val; omega) (by show _ = 1024 + k.val; omega)
  have sa : ∀ k : Fin 1024, (iblk m c 2 ⟨t.val - 1, hlt⟩ : Vec Ideal S512x1024 .f32) (ix2 q k)
      = m ((c : Thread nD τ).loc main_arg2) (ix2 (⟨t.val / 2 % 4 * 512 + q.val, ho⟩ : Fin 2048) (lo k)) := fun k =>
    wsig_blk m c ⟨t.val - 1, hlt⟩ _ (lo k) q k (by show _ = t.val / 2 % 4 * 512 + q.val; omega) (by show _ = k.val; omega)
  have sb : ∀ k : Fin 1024, (iblk m c 2 t : Vec Ideal S512x1024 .f32) (ix2 q k)
      = m ((c : Thread nD τ).loc main_arg2) (ix2 (⟨t.val / 2 % 4 * 512 + q.val, ho⟩ : Fin 2048) (hi k)) := fun k =>
    wsig_blk m c t _ (hi k) q k (by show _ = t.val / 2 % 4 * 512 + q.val; omega) (by show _ = 1024 + k.val; omega)
  have ea : ∀ k : Fin 1024, (iblk m c 3 ⟨t.val - 1, hlt⟩ : Vec Ideal S1x1024 .f32) (ix2 (0 : Fin 1) k)
      = m ((c : Thread nD τ).loc main_arg3) (ix1 (lo k)) := fun k =>
    ein_blk m c ⟨t.val - 1, hlt⟩ (lo k) k g6 (by show _ = k.val; omega)
  have eb : ∀ k : Fin 1024, (iblk m c 3 t : Vec Ideal S1x1024 .f32) (ix2 (0 : Fin 1) k)
      = m ((c : Thread nD τ).loc main_arg3) (ix1 (hi k)) := fun k =>
    ein_blk m c t (hi k) k f6 (by show _ = 1024 + k.val; omega)
  have oa : (iblk m c 4 ⟨t.val - 1, hlt⟩ : Vec Ideal S1x512 .f32) (ix2 (0 : Fin 1) q)
      = m ((c : Thread nD τ).loc main_arg4) (ix1 (⟨t.val / 2 % 4 * 512 + q.val, ho⟩ : Fin 2048)) :=
    eout_blk m c ⟨t.val - 1, hlt⟩ _ q g8 (by show _ = t.val / 2 % 4 * 512 + q.val; omega)
  have ob : (iblk m c 4 t : Vec Ideal S1x512 .f32) (ix2 (0 : Fin 1) q)
      = m ((c : Thread nD τ).loc main_arg4) (ix1 (⟨t.val / 2 % 4 * 512 + q.val, ho⟩ : Fin 2048)) :=
    eout_blk m c t _ q f8 (by show _ = t.val / 2 % 4 * 512 + q.val; omega)
  have bb : (iblk m c 5 t : Vec Ideal S1x512 .f32) (ix2 (0 : Fin 1) q)
      = biasAt (m ((c : Thread nD τ).loc main_arg5)) (m ((c : Thread nD τ).loc main_arg6)) (m ((c : Thread nD τ).loc main_arg7))
          (⟨t.val / 2 % 4 * 512 + q.val, ho⟩ : Fin 2048) :=
    bias_blk m c t _ q f10 (by show _ = t.val / 2 % 4 * 512 + q.val; omega)
  simp only [xa, xb, ma, mb, sa, sb, ea, eb, oa, ob, bb]

/-- An entry of the result lies in an odd point's block iff each coordinate is in that block's range. -/
theorem mem_blk (t : Fin cfg0.N) (i : S1024x2048.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v0).slice (win0_6.rect t)).set ↔ _
  rw [View.set_slice_whole, Rect.mem_set_unit]
  exact Iff.rfl

/-- Every entry of the result is in the block of the odd point of its row block and column block. -/
theorem cover (i : S1024x2048.Idx) : ∃ t : Fin cfg0.N, (cfg0.win 6).flush t = true ∧ i ∈ ((cfg0.win 6).blk t).view.set := by
  have hi0 : (i 0).val < 1024 := (i 0).isLt
  have hi1 : (i 1).val < 2048 := (i 1).isLt
  have hN : cfg0.N = 32 := N_0
  have ht : (i 0).val / 256 * 8 + (i 1).val / 512 * 2 + 1 < cfg0.N := by rw [hN]; omega
  refine ⟨⟨(i 0).val / 256 * 8 + (i 1).val / 512 * 2 + 1, ht⟩, (flush0_6 _).mpr (by dsimp only; omega), ?_⟩
  rw [mem_blk]
  obtain ⟨_, _, _, _, _, _, _, _, _, _, _, _, f12, f13⟩ := idx_facts ⟨(i 0).val / 256 * 8 + (i 1).val / 512 * 2 + 1, ht⟩
  dsimp only at f12 f13
  intro a
  match a with
  | ⟨0, _⟩ =>
    show win0_6.index ⟨(i 0).val / 256 * 8 + (i 1).val / 512 * 2 + 1, ht⟩ (0 : Fin 2) * 256 ≤ (i 0).val
      ∧ (i 0).val < win0_6.index ⟨(i 0).val / 256 * 8 + (i 1).val / 512 * 2 + 1, ht⟩ (0 : Fin 2) * 256 + 256
    rw [f12]; omega
  | ⟨1, _⟩ =>
    show win0_6.index ⟨(i 0).val / 256 * 8 + (i 1).val / 512 * 2 + 1, ht⟩ (1 : Fin 2) * 512 ≤ (i 1).val
      ∧ (i 1).val < win0_6.index ⟨(i 0).val / 256 * 8 + (i 1).val / 512 * 2 + 1, ht⟩ (1 : Fin 2) * 512 + 512
    rw [f13]; omega

/-- So the result array ends holding the layer, the two-path way. -/
theorem final (c : Dev nD) : (dats m 0 c).arrAt 6 cfg0.N = result m c :=
  (dats m 0 c).arrAt_eq_of_cover 6 (result m c) (flushed_eq m c) cover

/-- The run, read: the result array at the layer of the arguments as launched, the arguments unchanged. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks (F := Ideal) m ρ)

end Blocks2

end Cert.ReferenceIdeal.Whole

end
-- ==== Proof.Algebra.lean ====
/-
  The two arrangements of the noisy linear layer agree on real entries.

  The layer's value at row `b` and column `o` is a sum over the 2048 columns `k` of
  `x b k · (wmu o k + wsig o k · (eout o · ein k))`, plus a bias. The two-path arrangement computes the mean part
  `Σ x · wmu` and the noise part `(Σ (x · ein) · wsig) · eout` separately, each over the lower half of the columns
  (`k < 1024`) and then over the upper half (`1024 ≤ k`), and adds the four partial sums onto a zero. On the extended
  reals multiplication does not distribute over addition at the infinities, so the identity is proved where every entry
  of `x`, `wmu`, `wsig`, `ein` and `eout` is a real number: each entry is written as the coercion of a real, the
  coercion is moved outside the products and sums, and the identity is then one of real numbers — the sum over 2048
  columns splits into the sums over its two halves, the factor `eout o` comes out of each noise sum, and the rest is
  commutativity and distributivity. The bias is the same term on both sides and needs no hypothesis.
-/
import proofs.«150211_g2000605556667554_pallasbulk_845_2_alg».proof.Proof.Spec
import Mathlib.Data.EReal.Basic
import Mathlib.Algebra.BigOperators.Fin
import Mathlib.Algebra.BigOperators.Ring.Finset
import Mathlib.Tactic.Ring

noncomputable section

namespace Cert.NoisyLinear

open Idealize.ShloMosaic Idealize.ShloMosaic.ValueIdx

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the 2048 columns is the sum over the lower half plus the sum over the upper half. -/
theorem sum_halves (f : Fin 2048 → ℝ) :
    ∑ k : Fin 2048, f k = ∑ k : Fin 1024, f (lo k) + ∑ k : Fin 1024, f (hi k) :=
  Fin.sum_univ_add (a := 1024) (b := 1024) f

/-- Over any family `h` of columns, the fused summand splits into its mean part and its noise part, and the output
noise `c` comes out of the noise sum. -/
theorem half_law {ι : Type*} (s : Finset ι) (u m w e : ι → ℝ) (c : ℝ) :
    ∑ k ∈ s, u k * (m k + w k * (c * e k)) = ∑ k ∈ s, u k * m k + (∑ k ∈ s, (u k * e k) * w k) * c := by
  rw [Finset.sum_mul, ← Finset.sum_add_distrib]
  exact Finset.sum_congr rfl (fun k _ => by ring)

/-- The identity between the two arrangements, in the real numbers and without the bias. -/
theorem real_law (u m w e : Fin 2048 → ℝ) (c : ℝ) :
    ((((0 + ∑ k : Fin 1024, u (lo k) * m (lo k)) + (∑ k : Fin 1024, (u (lo k) * e (lo k)) * w (lo k)) * c)
        + ∑ k : Fin 1024, u (hi k) * m (hi k)) + (∑ k : Fin 1024, (u (hi k) * e (hi k)) * w (hi k)) * c)
      = ∑ k : Fin 2048, u k * (m k + w k * (c * e k)) := by
  rw [sum_halves (fun k => u k * (m k + w k * (c * e k))),
    half_law Finset.univ (fun k => u (lo k)) (fun k => m (lo k)) (fun k => w (lo k)) (fun k => e (lo k)) c,
    half_law Finset.univ (fun k => u (hi k)) (fun k => m (hi k)) (fun k => w (hi k)) (fun k => e (hi k)) c]
  ring

/-- Where `x`, both weight arrays and both noise vectors have only real entries, the two-path arrangement of the layer
is the fused one, entry by entry. -/
theorem twoPath_eq_fused (x : FVec Ideal SX .f32) (wmu wsig : FVec Ideal SW .f32) (ein eout bmu bsig beps : FVec Ideal SV .f32)
    (hx : IsReal x) (hwmu : IsReal wmu) (hwsig : IsReal wsig) (hein : IsReal ein) (heout : IsReal eout) :
    twoPath x wmu wsig ein eout bmu bsig beps = fused x wmu wsig ein eout bmu bsig beps := by
  choose xr hxr using hx
  choose mr hmr using hwmu
  choose wr hwr using hwsig
  choose er her using hein
  choose cr hcr using heout
  funext j
  show twoPathAt x wmu wsig ein eout bmu bsig beps (j 0) (j 1) = fusedAt x wmu wsig ein eout bmu bsig beps (j 0) (j 1)
  generalize j 0 = b
  generalize j 1 = o
  unfold twoPathAt fusedAt
  refine congrArg (· + biasAt bmu bsig beps o) ?_
  unfold meanHalf noiseHalf
  simp only [hxr, hmr, hwr, her, hcr]
  rw [← EReal.coe_zero]
  simp only [← EReal.coe_mul, ← EReal.coe_add, ← coe_finset_sum]
  exact congrArg _ (real_law (fun k => xr (ix2 b k)) (fun k => mr (ix2 o k)) (fun k => wr (ix2 o k))
    (fun k => er (ix1 k)) (cr (ix1 o)))

end Cert.NoisyLinear

end
-- ==== Proof.Finite.lean ====
/-
  The printed finiteness precondition, read at the ideal values.

  The precondition is a conjunction of eight tests, one per argument array: "the absolute value of every entry is
  below plus infinity", each stated as a comparison of the whole array against the constant whose pattern is that of
  plus infinity, reduced by "and" over all axes to a single truth value. At the ideal values an entry is an extended
  real, its absolute value is `max x (-x)`, and that pattern denotes the top element. So the test holding at every
  index says that `max x (-x) < ⊤` for every entry `x`, which excludes both infinities: every entry is a real number.
-/
import proofs.«150211_g2000605556667554_pallasbulk_845_2_alg».proof.Pre_finite_inputs
import proofs.«150211_g2000605556667554_pallasbulk_845_2_alg».proof.Proof.Spec
import Idealize.ShloMosaic.Lib.ReduceAll

noncomputable section

namespace Cert.NoisyLinear

open Idealize.ShloMosaic Idealize.ShloMosaic.ValueIdx

/-- An extended real whose absolute value is below the value of the plus-infinity pattern is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- The result of a reduction over all axes has a single index. -/
instance : Subsingleton Cert.Pre_finite_inputs.S_.Idx := ⟨fun a b => funext fun d => d.elim0⟩

/-- One conjunct of the precondition: if "every |entry| is below plus infinity" reduces to true, every entry of the
array is a real number. -/
theorem isReal_of_all_abs_lt_inf {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf x) (broadcastInDim s ![] bc (constant Cert.Pre_finite_inputs.S_ .f32 0x7F800000#32)))
        init hr hu j = 1#1) :
    IsReal x := by
  intro i
  exact real_of_abs_lt_inf (x i) (Host.reduce_andi_all _ init hr hu j e i)

/-- The precondition holding says that every entry of each of the eight argument arrays is a real number. -/
theorem real_of_finite [Cert.Pre_finite_inputs.Facts]
    (a0 : FVec Ideal SX .f32) (a1 a2 : FVec Ideal SW .f32) (a3 a4 a5 a6 a7 : FVec Ideal SV .f32)
    (h : Cert.Pre_finite_inputs.fn (F := Ideal) a0 a1 a2 a3 a4 a5 a6 a7 = fun _ => 1#1) :
    IsReal a0 ∧ IsReal a1 ∧ IsReal a2 ∧ IsReal a3 ∧ IsReal a4 ∧ IsReal a5 ∧ IsReal a6 ∧ IsReal a7 := by
  have h0 := congrFun h ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨e0, e1⟩, e2⟩, e3⟩, e4⟩, e5⟩, e6⟩, e7⟩ := h0
  exact ⟨isReal_of_all_abs_lt_inf a0 _ _ _ _ _ e0, isReal_of_all_abs_lt_inf a1 _ _ _ _ _ e1,
    isReal_of_all_abs_lt_inf a2 _ _ _ _ _ e2, isReal_of_all_abs_lt_inf a3 _ _ _ _ _ e3,
    isReal_of_all_abs_lt_inf a4 _ _ _ _ _ e4, isReal_of_all_abs_lt_inf a5 _ _ _ _ _ e5,
    isReal_of_all_abs_lt_inf a6 _ _ _ _ _ e6, isReal_of_all_abs_lt_inf a7 _ _ _ _ _ e7⟩

end Cert.NoisyLinear

end
-- ==== Proof.lean ====
/-
  A noisy linear layer with factorised noise: a fused kernel against a two-path blocked reference.

  Both programs compute, for `x` of shape [1024, 2048], weights of shape [2048, 2048] and noise and bias vectors of
  length 2048,

      y b o = Σ_k x b k · (wmu o k + wsig o k · (eout o · ein k)) + (bmu o + bsig o · beps o).

  The kernel forms the effective weight `wmu + wsig · (eout ⊗ ein)` of 256 output columns at a time and contracts all
  2048 columns in one product (`Proof/KernelValue.lean`: its result array is `fused` of the arguments; a change of float
  format is the identity at the ideal values). The reference keeps the mean path `x · wmuᵀ` and the noise path
  `((x · ein) · wsigᵀ) · eout` apart and accumulates them over the two halves of the contracted columns in turn
  (`Proof/RefValue.lean`: its result array is `twoPath` of the arguments). Over the extended reals the two arrangements
  differ at infinities, where multiplication does not distribute over addition; the precondition says every entry of every
  argument is finite (`Proof/Finite.lean`), and on real entries they are equal (`Proof/Algebra.lean`): the sum over the
  columns splits into its halves, `eout o` comes out of the noise sums, the rest is the ring laws. The three frames are
  the generated ones; the idealization rewrote nothing.
-/
import proofs.«150211_g2000605556667554_pallasbulk_845_2_alg».proof.Defs
import proofs.«150211_g2000605556667554_pallasbulk_845_2_alg».proof.Proof.Gen.Kernel
import proofs.«150211_g2000605556667554_pallasbulk_845_2_alg».proof.Proof.Gen.Kernel.Frame
import proofs.«150211_g2000605556667554_pallasbulk_845_2_alg».proof.Proof.Gen.KernelIdeal
import proofs.«150211_g2000605556667554_pallasbulk_845_2_alg».proof.Proof.Gen.KernelIdeal.Frame
import proofs.«150211_g2000605556667554_pallasbulk_845_2_alg».proof.Proof.Gen.ReferenceIdeal
import proofs.«150211_g2000605556667554_pallasbulk_845_2_alg».proof.Proof.Gen.ReferenceIdeal.Frame
import proofs.«150211_g2000605556667554_pallasbulk_845_2_alg».proof.Proof.Gen.Pre_finite_inputs
import proofs.«150211_g2000605556667554_pallasbulk_845_2_alg».proof.Proof.KernelValue
import proofs.«150211_g2000605556667554_pallasbulk_845_2_alg».proof.Proof.RefValue
import proofs.«150211_g2000605556667554_pallasbulk_845_2_alg».proof.Proof.Algebra
import proofs.«150211_g2000605556667554_pallasbulk_845_2_alg».proof.Proof.Finite
import Idealize.ShloMosaic.Adequacy
import Idealize.ShloMosaic.Init

noncomputable section

namespace Cert.Proof

open Idealize.ShloMosaic Idealize.SL.Sem

/-- The kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference. -/
theorem frame_referenceIdeal : Cert.frame_ReferenceIdeal := fun m ρ _ => Cert.ReferenceIdeal.Gen.frame m ρ

/-- The idealization rewrote no operation. -/
theorem preserves : Cert.preserves_Kernel_KernelIdeal := trivial

/-- From memories agreeing on finite arguments both programs end with the layer's array: the kernel's is the fused
    arrangement, the reference's the two-path one, and on real entries the two are one function. -/
theorem algebraic : Cert.algebraic_KernelIdeal_ReferenceIdeal := by
  intro m ρ m' ρ' hpre hagree
  refine ⟨fun c => Cert.NoisyLinear.fused
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun r h c => ⟨(h c).1.trans ?_, (h c).2⟩)
    (Cert.ReferenceIdeal.Whole.run m' ρ')
  obtain ⟨a0, a1, a2, a3, a4, a5, a6, a7⟩ := hagree c
  obtain ⟨r0, r1, r2, r3, r4, -, -, -⟩ := Cert.NoisyLinear.real_of_finite _ _ _ _ _ _ _ _ (hpre c)
  show Cert.NoisyLinear.twoPath _ _ _ _ _ _ _ _ = _
  rw [a0, a1, a2, a3, a4, a5, a6, a7]
  exact Cert.NoisyLinear.twoPath_eq_fused _ _ _ _ _ _ _ _ r0 r1 r2 r3 r4

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
